-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x1024 : Shape := ⟨3, ![16, 256, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg4 : FVec F S16x1024 .f32) (main_v13 : IVec S_ 1) (main_v16 : IVec S16x1024x4096 1) : IVec S_ 1 :=
  let main_c_5 : IVec S_ 1 := constantI S_ 1 1#1
  let main_v17 : IVec S_ 1 := (fun x v => Host.reduce IntOp.andi x v reducesTo_S16x1024x4096_S_d0_1_2 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  main_v23

def fn {F : FTy → Type} [FloatOps F] (main_arg0 : FVec F S16x256x1024 .f32) (main_arg1 : FVec F S16x4096x1024 .f32) (main_arg2 : FVec F S16x4096 .f32) (main_arg3 : FVec F S16x1024x4096 .f32) (main_arg4 : FVec F S16x1024 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S16x4096x1024 .f32 := Host.absf main_arg1
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S16x1024x4096 .f32 := Host.absf main_arg3
  let main_cst_4 : FVec F S_ .f32 := constant S_ .f32 0x7F800000#32
  let main_v15 : FVec F S16x1024x4096 .f32 := broadcastInDim S16x1024x4096 ![] bcast_S_S16x1024x4096 main_cst_4
  let main_v16 : IVec S16x1024x4096 1 := cmpf .olt main_v14 main_v15
  fn_part1 (F := F) main_arg4 main_v13 main_v16
-- ==== Kernel.lean ====
abbrev S16x256x1024 : Shape := ⟨3, ![16, 256, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S16x1x4096 : Shape := ⟨3, ![16, 1, 4096]⟩
abbrev S16x1x1024 : Shape := ⟨3, ![16, 1, 1024]⟩
abbrev S1x256x1024 : Shape := ⟨3, ![1, 256, 1024]⟩
abbrev S1x1024x1024 : Shape := ⟨3, ![1, 1024, 1024]⟩
abbrev S1x1x1024 : Shape := ⟨3, ![1, 1, 1024]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S16x4096, .f32⟩
  | .hbm, ⟨3, _⟩ => ⟨S16x1024x4096, .f32⟩
  | .hbm, ⟨4, _⟩ => ⟨S16x1024, .f32⟩
  | .hbm, ⟨5, _⟩ => ⟨S16x1x4096, .f32⟩
  | .hbm, ⟨6, _⟩ => ⟨S16x1x1024, .f32⟩
  | .hbm, ⟨7, _⟩ => ⟨S16x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_17 : BitVec 32 := 0#32
  let v29 : BitVec 1 := Scalar.cmpi .ne v28 c0_i32_17
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16x4096_S16x1x4096 : S16x4096.ShapeCasts S16x1x4096
  shapeCasts_S16x1024_S16x1x1024 : S16x1024.ShapeCasts S16x1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .f32 = 32 ∨ (Rect.block (s := S16x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x4096x1024.size a
  hwx0_1 : ∀ i : grid0.Coords, EltTy.bits .f32 = 32 ∨ (Rect.block (s := S16x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x4096.size a
  hwx0_3 : ∀ i : grid0.Coords, EltTy.bits .f32 = 32 ∨ (Rect.block (s := S16x1024x4096) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S16x1x1024.size a
  hwx0_4 : ∀ i : grid0.Coords, EltTy.bits .f32 = 32 ∨ (Rect.block (s := S16x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x256x1024.size a
  hwx0_5 : ∀ i : grid0.Coords, EltTy.bits .f32 = 32 ∨ (Rect.block (s := S16x256x1024) S1x256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x256x1024 : Shape := ⟨3, ![16, 256, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S16x256x4096 : Shape := ⟨3, ![16, 256, 4096]⟩
abbrev S16x1x4096 : Shape := ⟨3, ![16, 1, 4096]⟩
abbrev S_ : Shape := ⟨0, ![]⟩
abbrev S16x1x1024 : Shape := ⟨3, ![16, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S16x4096, .f32⟩
  | .hbm, ⟨3, _⟩ => ⟨S16x1024x4096, .f32⟩
  | .hbm, ⟨4, _⟩ => ⟨S16x1024, .f32⟩
  | .hbm, ⟨5, _⟩ => ⟨S16x256x4096, .f32⟩
  | .hbm, ⟨6, _⟩ => ⟨S16x1x4096, .f32⟩
  | .hbm, ⟨7, _⟩ => ⟨S16x256x4096, .f32⟩
  | .hbm, ⟨8, _⟩ => ⟨S16x256x4096, .f32⟩
  | .hbm, ⟨9, _⟩ => ⟨S16x256x4096, .f32⟩
  | .hbm, ⟨10, _⟩ => ⟨S16x256x4096, .f32⟩
  | .hbm, ⟨11, _⟩ => ⟨S_, .f32⟩
  | .hbm, ⟨12, _⟩ => ⟨S16x256x4096, .f32⟩
  | .hbm, ⟨13, _⟩ => ⟨S16x256x4096, .f32⟩
  | .hbm, ⟨14, _⟩ => ⟨S_, .f32⟩
  | .hbm, ⟨15, _⟩ => ⟨S16x256x4096, .f32⟩
  | .hbm, ⟨16, _⟩ => ⟨S16x256x4096, .f32⟩
  | .hbm, ⟨17, _⟩ => ⟨S16x256x4096, .f32⟩
  | .hbm, ⟨18, _⟩ => ⟨S16x256x1024, .f32⟩
  | .hbm, ⟨19, _⟩ => ⟨S16x1x1024, .f32⟩
  | .hbm, ⟨20, _⟩ => ⟨S16x256x1024, .f32⟩
  | .hbm, ⟨21, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]

class Facts₀ : Prop where
  bcast_S16x4096_S16x1x4096_0_2 : S16x4096.BroadcastsInDim S16x1x4096 (![0, 2] : Fin 2 → Fin S16x1x4096.rank)
  bcast_S16x1x4096_S16x256x4096_0_1_2 : S16x1x4096.BroadcastsInDim S16x256x4096 (![0, 1, 2] : Fin 3 → Fin S16x256x4096.rank)
  bcast_S_S16x256x4096 : S_.BroadcastsInDim S16x256x4096 (![] : Fin 0 → Fin S16x256x4096.rank)
  bcast_S16x1024_S16x1x1024_0_2 : S16x1024.BroadcastsInDim S16x1x1024 (![0, 2] : Fin 2 → Fin S16x1x1024.rank)
  bcast_S16x1x1024_S16x256x1024_0_1_2 : S16x1x1024.BroadcastsInDim S16x256x1024 (![0, 1, 2] : Fin 3 → Fin S16x256x1024.rank)
  dot_S16x256x1024_S16x4096x1024_S16x256x4096_2_2_1_1_0_0_wf : DotDims.WF S16x256x1024 S16x4096x1024 S16x256x4096 [2] [2] [1] [1] [0] [0]
  dot_S16x256x4096_S16x1024x4096_S16x256x1024_2_2_1_1_0_0_wf : DotDims.WF S16x256x4096 S16x1024x4096 S16x256x1024 [2] [2] [1] [1] [0] [0]

variable [Facts₀]

def dot_S16x256x1024_S16x4096x1024_S16x256x4096_2_2_1_1_0_0 : DotDims S16x256x1024 S16x4096x1024 S16x256x4096 where
  lhsContracting := [2]
  rhsContracting := [2]
  lhsNonContracting := [1]
  rhsNonContracting := [1]
  lhsBatch := [0]
  rhsBatch := [0]
  wf := dot_S16x256x1024_S16x4096x1024_S16x256x4096_2_2_1_1_0_0_wf
def dot_S16x256x4096_S16x1024x4096_S16x256x1024_2_2_1_1_0_0 : DotDims S16x256x4096 S16x1024x4096 S16x256x1024 where
  lhsContracting := [2]
  rhsContracting := [2]
  lhsNonContracting := [1]
  rhsNonContracting := [1]
  lhsBatch := [0]
  rhsBatch := [0]
  wf := dot_S16x256x4096_S16x1024x4096_S16x256x1024_2_2_1_1_0_0_wf

class Facts : Prop extends Facts₀ where

variable [Facts]
-- ==== Proof.FfnSpec.lean ====
/-
  The mathematics of the expert feed-forward layer, with no program in sight.

  For expert `e`, row `b` and hidden unit `f` the pre-activation is the inner product of row `b` of `x` with
  row `f` of `w1` plus the bias `b1 (e, f)`; the hidden activation is its SiLU, `z * logistic z`; the result at
  `(e, b, d)` is the sum over all 4096 hidden units of the activation times `w2 (e, d, f)`, plus `b2 (e, d)`.

  The hidden axis splits into four tiles of 1024 units, unit `f' ` of tile `j` being `1024 * j + f'`. Adding the
  four tiles' partial sums one after the other onto zero gives the whole sum: addition of extended reals is
  commutative and associative, so no finiteness is needed for this regrouping.
-/
import Idealize.ShloMosaic.Lib.ValueIdx
import Idealize.ShloMosaic.PureOps.Ideal.Laws

noncomputable section

open scoped BigOperators
open Idealize.ShloMosaic Idealize.ShloMosaic.ValueIdx

namespace Cert.FfnSpec

/-- Hidden unit `f'` of tile `j`: `1024 * j + f'`. -/
def tileIdx (j : Fin 4) (f : Fin 1024) : Fin 4096 := ⟨f.val + 1024 * j.val, by omega⟩

theorem tileIdx_val (j : Fin 4) (f : Fin 1024) : (tileIdx j f).val = f.val + 1024 * j.val := rfl

/-- A sum over the 4096 hidden units is the four tiles' sums added, in order, onto zero. -/
theorem sum_tiles {M : Type*} [AddCommMonoid M] (g : Fin 4096 → M) :
    ∑ f, g f = 0 + (∑ f', g (tileIdx 0 f')) + (∑ f', g (tileIdx 1 f')) + (∑ f', g (tileIdx 2 f'))
      + (∑ f', g (tileIdx 3 f')) := by
  have h := Equiv.sum_comp (finProdFinEquiv (m := 4) (n := 1024)) (fun p : Fin (4 * 1024) => g p)
  rw [Fintype.sum_prod_type, Fin.sum_univ_four] at h
  rw [zero_add]
  exact h.symm

/-- SiLU on the extended reals. -/
def silu (z : EReal) : EReal := z * Ideal.logistic z

variable (x : (⟨3, ![16, 256, 1024]⟩ : Shape).Idx → EReal) (w1 : (⟨3, ![16, 4096, 1024]⟩ : Shape).Idx → EReal)
  (b1 : (⟨2, ![16, 4096]⟩ : Shape).Idx → EReal) (w2 : (⟨3, ![16, 1024, 4096]⟩ : Shape).Idx → EReal)
  (b2 : (⟨2, ![16, 1024]⟩ : Shape).Idx → EReal)

/-- The hidden activation of expert `e`, row `b`, hidden unit `f`. -/
def hidden (e : Fin 16) (b : Fin 256) (f : Fin 4096) : EReal :=
  silu ((∑ k : Fin 1024, x (ix3 e b k) * w1 (ix3 e f k)) + b1 (ix2 e f))

/-- Tile `j`'s share of the result at `(e, b, d)`. -/
def tileSum (e : Fin 16) (j : Fin 4) (b : Fin 256) (d : Fin 1024) : EReal :=
  ∑ f' : Fin 1024, hidden x w1 b1 e b (tileIdx j f') * w2 (ix3 e d (tileIdx j f'))

/-- The layer's result, index by index. -/
def ffn : (⟨3, ![16, 256, 1024]⟩ : Shape).Idx → EReal := fun i =>
  (∑ f : Fin 4096, hidden x w1 b1 (i 0) (i 1) f * w2 (ix3 (i 0) (i 2) f)) + b2 (ix2 (i 0) (i 2))

/-- The result is the four tiles' shares added in order onto zero, plus the output bias. -/
theorem ffn_eq_tiles (e : Fin 16) (b : Fin 256) (d : Fin 1024) :
    ffn x w1 b1 w2 b2 (ix3 e b d)
      = (0 + tileSum x w1 b1 w2 e 0 b d + tileSum x w1 b1 w2 e 1 b d + tileSum x w1 b1 w2 e 2 b d
          + tileSum x w1 b1 w2 e 3 b d) + b2 (ix2 e d) := by
  unfold ffn tileSum
  rw [sum_tiles]

end Cert.FfnSpec

end
-- ==== Proof.RefValue.lean ====
/-
  The reference, read index by index, is the layer's function `FfnSpec.ffn`.

  At `(e, b, d)` the reference adds `b2 (e, d)` to the contraction over the 4096 hidden units of the activation
  at `(e, b, f)` with `w2 (e, d, f)`; the activation is the pre-activation `z` (the contraction of `x (e, b, ·)`
  with `w1 (e, f, ·)` plus `b1 (e, f)`) times `1 / (1 + exp (-z))`, which on the extended reals is the logistic
  function of `z` by definition, the literal `1.0` being the real number one.
-/
import proofs.«162168_j137438954163_1_alg».proof.Proof.Gen.ReferenceIdeal.Read
import proofs.«162168_j137438954163_1_alg».proof.Proof.FfnSpec

noncomputable section

open scoped BigOperators
open Idealize.ShloMosaic Idealize.ShloMosaic.ValueIdx

namespace Cert.ReferenceIdeal.RefValue

open Cert.ReferenceIdeal Cert.ReferenceIdeal.Read

/-- The f32 pattern of `1.0` is the real number one. -/
theorem ofBits_one : Ideal.ofBits .f32 0x3F800000#32 = 1 := by
  simp [Ideal.ofBits, Ideal.ieee, -EReal.coe_mul]; norm_num

/-- `z * (1 / (1 + exp (-z)))` in the host's operations is SiLU. -/
theorem silu_host (z : EReal) :
    z * Ideal.div (Ideal.ofBits .f32 0x3F800000#32) (Ideal.ofBits .f32 0x3F800000#32 + Ideal.exp (-z)) = FfnSpec.silu z := by
  rw [ofBits_one]; rfl

theorem ref_is_ffn (x0 : S16x256x1024.Idx → EReal) (x1 : S16x4096x1024.Idx → EReal) (x2 : S16x4096.Idx → EReal)
    (x3 : S16x1024x4096.Idx → EReal) (x4 : S16x1024.Idx → EReal) :
    val_main_v8 (F := Ideal) x0 x1 x2 x3 x4 = FfnSpec.ffn x0 x1 x2 x3 x4 := by
  funext i
  have eb2 : idx_main_v6 (idx_main_v7 i) = ix2 (i 0) (i 2) :=
    funext fun a => by match a with | ⟨0, _⟩ => rfl | ⟨1, _⟩ => rfl
  rw [val_main_v8_apply, val_main_v5_apply, val_main_v7_apply, val_main_v6_apply, eb2]
  unfold FfnSpec.ffn
  refine congrArg₂ (· + ·) (Finset.sum_congr rfl fun f _ => ?_) rfl
  have ew2 : ridx_main_v5 i f = ix3 (i 0) (i 2) f :=
    funext fun a => by match a with | ⟨0, _⟩ => rfl | ⟨1, _⟩ => rfl | ⟨2, _⟩ => rfl
  have ex : ∀ k : Fin 1024, lidx_main_v0 (lidx_main_v5 i f) k = ix3 (i 0) (i 1) k := fun k =>
    funext fun a => by match a with | ⟨0, _⟩ => rfl | ⟨1, _⟩ => rfl | ⟨2, _⟩ => rfl
  have ew1 : ∀ k : Fin 1024, ridx_main_v0 (lidx_main_v5 i f) k = ix3 (i 0) f k := fun k =>
    funext fun a => by match a with | ⟨0, _⟩ => rfl | ⟨1, _⟩ => rfl | ⟨2, _⟩ => rfl
  have eb1 : idx_main_v1 (idx_main_v2 (lidx_main_v5 i f)) = ix2 (i 0) f :=
    funext fun a => by match a with | ⟨0, _⟩ => rfl | ⟨1, _⟩ => rfl
  rw [ew2]
  refine congrArg (· * x3 (ix3 (i 0) (i 2) f)) ?_
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v3_apply, val_main_v0_apply, val_main_v2_apply, val_main_v1_apply, eb1]
  simp only [ex, ew1]
  unfold FfnSpec.hidden
  exact silu_host _

end Cert.ReferenceIdeal.RefValue

end
-- ==== Proof.Payload.lean ====
/-
  The body's arithmetic, read at one entry on the extended reals.

  One run of the body at a tile computes, for row `r` and output column `d`, the accumulator's entry plus the sum
  over the tile's 1024 hidden units `f'` of `silu (∑ k, x (r, k) * w1 (f', k) + b1 f') * w2 (d, f')`: both matrix
  products contract the second axis of both operands, a change of float format is the identity, and the bias row is
  read through its two shape casts and the row broadcast. The cleared accumulator is zero everywhere, and the output
  block is the accumulator plus the output bias row.
-/
import proofs.«162168_j137438954163_1_alg».proof.Proof.Gen.KernelIdeal.Skeleton
import proofs.«162168_j137438954163_1_alg».proof.Proof.FfnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The kernel's matrix product contracts the second axis of both operands: rows of the left against rows of the right. -/
theorem lhs_axis0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_axis1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_axis0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_axis1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Into the zero splat, entry `(r, n)` of the product is the sum over `k` of `A (r, k) * B (n, k)`. -/
theorem matmul_rows_apply {φ₁ φ₂ : FTy} (A : FVec Ideal S256x1024 φ₁) (B : FVec Ideal S1024x1024 φ₂) (r : Fin 256) (n : Fin 1024) :
    matmul dot_S256x1024_S1024x1024_S256x1024_1_1_0_0_n_n none A B (constant S256x1024 .f32 0x00000000#32) (ix2 r n)
      = ∑ k : Fin 1024, A (ix2 r k) * B (ix2 n k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r n) ((ValueIdx.contrEquiv1 dot_S256x1024_S1024x1024_S256x1024_1_1_0_0_n_n 1024 rfl rfl).symm k) = ix2 r k := funext fun a => Fin.ext (by
    match a with
    | ⟨0, _⟩ => exact lhs_axis0 _ _
    | ⟨1, _⟩ => exact (lhs_axis1 _ _).trans hk)
  have er : dot_S256x1024_S1024x1024_S256x1024_1_1_0_0_n_n.rhsIdx (ix2 r n) ((ValueIdx.contrEquiv1 dot_S256x1024_S1024x1024_S256x1024_1_1_0_0_n_n 1024 rfl rfl).symm k) = ix2 n k := funext fun a => Fin.ext (by
    match a with
    | ⟨0, _⟩ => exact rhs_axis0 _ _
    | ⟨1, _⟩ => exact (rhs_axis1 _ _).trans hk)
  rw [el, er]

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- The logistic function, lane by lane. -/
theorem logistic_apply {s : Shape} {φ : FTy} (x : FVec Ideal s φ) (i : s.Idx) : logistic x i = Ideal.logistic (x i) := rfl

/-- The cleared accumulator is zero at every entry. -/
theorem pay1_apply (r : Fin 256) (d : Fin 1024) : k0_pay1 (F := Ideal) (ix2 r d) = 0 := by
  unfold k0_pay1
  rw [shapeCast_self]
  exact Ideal.ofBits_zero_f32

/-- One tile's run: the accumulator's entry plus the tile's share. -/
theorem pay2_apply (v3 : Vec Ideal S1x256x1024 .f32) (v6 : Vec Ideal S1x1024x1024 .f32) (v9 : Vec Ideal S1x1x1024 .f32)
    (v18 : Vec Ideal S1x1024x1024 .f32) (v22 : Vec Ideal S256x1024 .f32) (r : Fin 256) (d : Fin 1024) :
    k0_pay2 (F := Ideal) v3 v6 v9 v18 v22 (ix2 r d)
      = v22 (ix2 r d) + ∑ f' : Fin 1024,
          FfnSpec.silu ((∑ k : Fin 1024, v3 (ix3 (0 : Fin 1) r k) * v6 (ix3 (0 : Fin 1) f' k)) + v9 (ix3 (0 : Fin 1) (0 : Fin 1) f'))
            * v18 (ix3 (0 : Fin 1) d f') := by
  unfold k0_pay2
  rw [shapeCast_self, addf_apply, matmul_rows_apply]
  refine congrArg (v22 (ix2 r d) + ·) (Finset.sum_congr rfl fun f' _ => ?_)
  rw [truncf_apply, truncf_apply, shapeCast_1ab_ab_apply, mulf_apply, logistic_apply, addf_apply, matmul_rows_apply,
    broadcastTo_1b_ab_apply, shapeCast_a_1a_apply, shapeCast_11a_a_apply]
  simp only [truncf_apply, shapeCast_1ab_ab_apply]
  rfl

/-- The output block: the accumulator plus the output bias row. -/
theorem pay3_apply (v30 : Vec Ideal S1x1x1024 .f32) (v32 : Vec Ideal S256x1024 .f32) (u : Fin 1) (r : Fin 256) (d : Fin 1024) :
    k0_pay3 (F := Ideal) v30 v32 (ix3 u r d) = v32 (ix2 r d) + v30 (ix3 (0 : Fin 1) (0 : Fin 1) d) := by
  unfold k0_pay3
  rw [shapeCast_ab_1ab_apply, addf_apply, broadcastTo_1b_ab_apply, shapeCast_a_1a_apply, shapeCast_11a_a_apply]

end Cert.KernelIdeal.Payload

end
-- ==== Proof.Blocks.lean ====
/-
  Each window's block at a grid point, read back to the argument arrays.

  Grid point `t` of the 16 × 4 grid is expert `t / 4`, tile `t % 4`. The block of `x` there is expert `e`'s whole
  `[256, 1024]` slab; the block of `w1` is rows `1024 * j + f'` of expert `e`; the blocks of the reshaped first bias
  and of `w2` take columns `1024 * j + f'`; the reshaped second bias and the output take expert `e`'s whole row and
  slab. The two biases reach the kernel through a host reshape that inserts a unit axis, which reads `(e, 0, f)` at
  `(e, f)`. Put together: one run of the body at point `t` adds tile `j`'s share of expert `e`'s result onto the
  accumulator.
-/
import proofs.«162168_j137438954163_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import proofs.«162168_j137438954163_1_alg».proof.Proof.FfnSpec
import proofs.«162168_j137438954163_1_alg».proof.Proof.Payload

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The printed index maps, decided once over the 64 grid points: expert `t / 4` on the leading axis of every window, tile
    `t % 4` on the hidden axis of the windows that have one, `0` elsewhere. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = t.val % 4
    ∧ win0_4.index t (0 : Fin 3) = t.val / 4 ∧ win0_4.index t (1 : Fin 3) = 0 ∧ win0_4.index t (2 : Fin 3) = 0
    ∧ win0_5.index t (0 : Fin 3) = t.val / 4 ∧ win0_5.index t (1 : Fin 3) = 0 ∧ win0_5.index t (2 : Fin 3) = 0 :=
  (by decide +kernel : ∀ t : Fin grid0.N, _)

/-- The block of `x` at point `t` is expert `e`'s slab. -/
theorem xblk_apply (c : Dev nD) (t : Fin cfg0.N) (e : Fin 16) (he : e.val = t.val / 4) (u : Fin 1) (r : Fin 256) (k : Fin 1024) :
    (iblk m c 0 t : Vec Ideal S1x256x1024 .f32) (ix3 u r k) = V m c main_arg0 (ix3 e r k) := by
  obtain ⟨e0, e1, e2, -⟩ := idx_facts t
  show V m c main_arg0 (((cfg0.win 0).blk t).view.emb (ix3 u r k)) = _
  refine congrArg (V m c main_arg0) (funext fun a => Fin.ext ?_)
  match a with
  | ⟨0, _⟩ => show win0_0.index t (0 : Fin 3) * 1 + 1 * u.val = e.val; omega
  | ⟨1, _⟩ => show win0_0.index t (1 : Fin 3) * 256 + 1 * r.val = r.val; omega
  | ⟨2, _⟩ => show win0_0.index t (2 : Fin 3) * 1024 + 1 * k.val = k.val; omega

/-- The block of `w1` at point `t` is tile `j`'s rows of expert `e`. -/
theorem w1blk_apply (c : Dev nD) (t : Fin cfg0.N) (e : Fin 16) (he : e.val = t.val / 4) (j : Fin 4) (hj : j.val = t.val % 4)
    (u : Fin 1) (f : Fin 1024) (k : Fin 1024) :
    (iblk m c 1 t : Vec Ideal S1x1024x1024 .f32) (ix3 u f k) = V m c main_arg1 (ix3 e (FfnSpec.tileIdx j f) k) := by
  obtain ⟨-, -, -, e0, e1, e2, -⟩ := idx_facts t
  show V m c main_arg1 (((cfg0.win 1).blk t).view.emb (ix3 u f k)) = _
  refine congrArg (V m c main_arg1) (funext fun a => Fin.ext ?_)
  match a with
  | ⟨0, _⟩ => show win0_1.index t (0 : Fin 3) * 1 + 1 * u.val = e.val; omega
  | ⟨1, _⟩ => show win0_1.index t (1 : Fin 3) * 1024 + 1 * f.val = f.val + 1024 * j.val; omega
  | ⟨2, _⟩ => show win0_1.index t (2 : Fin 3) * 1024 + 1 * k.val = k.val; omega

/-- The block of the reshaped first bias at point `t` is tile `j`'s columns of expert `e`'s row. -/
theorem b1blk_apply (c : Dev nD) (t : Fin cfg0.N) (e : Fin 16) (he : e.val = t.val / 4) (j : Fin 4) (hj : j.val = t.val % 4)
    (u u' : Fin 1) (f : Fin 1024) :
    (iblk m c 2 t : Vec Ideal S1x1x1024 .f32) (ix3 u u' f) = V m c main_v0 (ix3 e (0 : Fin 1) (FfnSpec.tileIdx j f)) := by
  obtain ⟨-, -, -, -, -, -, e0, e1, e2, -⟩ := idx_facts t
  show V m c main_v0 (((cfg0.win 2).blk t).view.emb (ix3 u u' f)) = _
  refine congrArg (V m c main_v0) (funext fun a => Fin.ext ?_)
  match a with
  | ⟨0, _⟩ => show win0_2.index t (0 : Fin 3) * 1 + 1 * u.val = e.val; omega
  | ⟨1, _⟩ => show win0_2.index t (1 : Fin 3) * 1 + 1 * u'.val = 0; omega
  | ⟨2, _⟩ => show win0_2.index t (2 : Fin 3) * 1024 + 1 * f.val = f.val + 1024 * j.val; omega

/-- The block of `w2` at point `t` is tile `j`'s columns of expert `e`. -/
theorem w2blk_apply (c : Dev nD) (t : Fin cfg0.N) (e : Fin 16) (he : e.val = t.val / 4) (j : Fin 4) (hj : j.val = t.val % 4)
    (u : Fin 1) (d : Fin 1024) (f : Fin 1024) :
    (iblk m c 3 t : Vec Ideal S1x1024x1024 .f32) (ix3 u d f) = V m c main_arg3 (ix3 e d (FfnSpec.tileIdx j f)) := by
  obtain ⟨-, -, -, -, -, -, -, -, -, e0, e1, e2, -⟩ := idx_facts t
  show V m c main_arg3 (((cfg0.win 3).blk t).view.emb (ix3 u d f)) = _
  refine congrArg (V m c main_arg3) (funext fun a => Fin.ext ?_)
  match a with
  | ⟨0, _⟩ => show win0_3.index t (0 : Fin 3) * 1 + 1 * u.val = e.val; omega
  | ⟨1, _⟩ => show win0_3.index t (1 : Fin 3) * 1024 + 1 * d.val = d.val; omega
  | ⟨2, _⟩ => show win0_3.index t (2 : Fin 3) * 1024 + 1 * f.val = f.val + 1024 * j.val; omega

/-- The block of the reshaped second bias at point `t` is expert `e`'s row. -/
theorem b2blk_apply (c : Dev nD) (t : Fin cfg0.N) (e : Fin 16) (he : e.val = t.val / 4) (u u' : Fin 1) (d : Fin 1024) :
    (iblk m c 4 t : Vec Ideal S1x1x1024 .f32) (ix3 u u' d) = V m c main_v1 (ix3 e (0 : Fin 1) d) := by
  obtain ⟨-, -, -, -, -, -, -, -, -, -, -, -, e0, e1, e2, -⟩ := idx_facts t
  show V m c main_v1 (((cfg0.win 4).blk t).view.emb (ix3 u u' d)) = _
  refine congrArg (V m c main_v1) (funext fun a => Fin.ext ?_)
  match a with
  | ⟨0, _⟩ => show win0_4.index t (0 : Fin 3) * 1 + 1 * u.val = e.val; omega
  | ⟨1, _⟩ => show win0_4.index t (1 : Fin 3) * 1 + 1 * u'.val = 0; omega
  | ⟨2, _⟩ => show win0_4.index t (2 : Fin 3) * 1024 + 1 * d.val = d.val; omega

/-- An `[a, b]` array reshaped to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The first bias as the region finds it: the host's reshape of the argument. -/
theorem b1r_apply (c : Dev nD) (e : Fin 16) (u : Fin 1) (f : Fin 4096) :
    (V m c main_v0 : S16x1x4096.Idx → EReal) (ix3 e u f) = (m ((c : Thread nD τ).loc main_arg2) : S16x4096.Idx → EReal) (ix2 e f) := by
  have hV : (V m c main_v0 : S16x1x4096.Idx → EReal)
      = shapeCast S16x1x4096 (m ((c : Thread nD τ).loc main_arg2) : S16x4096.Idx → EReal) shapeCasts_S16x4096_S16x1x4096 := by
    dsimp only [V, hostOps0]; after_results; rfl
  rw [hV]
  exact shapeCast_ab_a1b_apply _ _ e u f

/-- The second bias as the region finds it: the host's reshape of the argument. -/
theorem b2r_apply (c : Dev nD) (e : Fin 16) (u : Fin 1) (d : Fin 1024) :
    (V m c main_v1 : S16x1x1024.Idx → EReal) (ix3 e u d) = (m ((c : Thread nD τ).loc main_arg4) : S16x1024.Idx → EReal) (ix2 e d) := by
  have hV : (V m c main_v1 : S16x1x1024.Idx → EReal)
      = shapeCast S16x1x1024 (m ((c : Thread nD τ).loc main_arg4) : S16x1024.Idx → EReal) shapeCasts_S16x1024_S16x1x1024 := by
    dsimp only [V, hostOps0]; after_results; rfl
  rw [hV]
  exact shapeCast_ab_a1b_apply _ _ e u d

/-- The argument arrays, as launched, under the names of the layer's description. -/
abbrev X (c : Dev nD) : S16x256x1024.Idx → EReal := m ((c : Thread nD τ).loc main_arg0)
abbrev W1 (c : Dev nD) : S16x4096x1024.Idx → EReal := m ((c : Thread nD τ).loc main_arg1)
abbrev B1 (c : Dev nD) : S16x4096.Idx → EReal := m ((c : Thread nD τ).loc main_arg2)
abbrev W2 (c : Dev nD) : S16x1024x4096.Idx → EReal := m ((c : Thread nD τ).loc main_arg3)
abbrev B2 (c : Dev nD) : S16x1024.Idx → EReal := m ((c : Thread nD τ).loc main_arg4)

/-- One tile's step: the body's sum at point `t`, over any accumulator contents, adds tile `j`'s share of expert `e`. -/
theorem tile_step (c : Dev nD) (t : Fin cfg0.N) (e : Fin 16) (he : e.val = t.val / 4) (j : Fin 4) (hj : j.val = t.val % 4)
    (acc : Vec Ideal S256x1024 .f32) (r : Fin 256) (d : Fin 1024) :
    k0_pay2 (F := Ideal) (iblk m c 0 t) (iblk m c 1 t) (iblk m c 2 t) (iblk m c 3 t) acc (ix2 r d)
      = acc (ix2 r d) + FfnSpec.tileSum (X m c) (W1 m c) (B1 m c) (W2 m c) e j r d := by
  refine (Payload.pay2_apply (iblk m c 0 t) (iblk m c 1 t) (iblk m c 2 t) (iblk m c 3 t) acc r d).trans ?_
  unfold FfnSpec.tileSum FfnSpec.hidden
  refine congrArg (acc (ix2 r d) + ·) (Finset.sum_congr rfl fun f _ => ?_)
  rw [b1blk_apply m c t e he j hj, b1r_apply, w2blk_apply m c t e he j hj, V_main_arg3]
  simp only [xblk_apply m c t e he, w1blk_apply m c t e he j hj]
  refine congrArg (fun z => FfnSpec.silu (z + B1 m c (ix2 e (FfnSpec.tileIdx j f))) * W2 m c (ix3 e d (FfnSpec.tileIdx j f)))
    (Finset.sum_congr rfl fun k _ => ?_)
  rw [V_main_arg0, V_main_arg1]

/-- The output bias row at point `t` is expert `e`'s. -/
theorem bias_step (c : Dev nD) (t : Fin cfg0.N) (e : Fin 16) (he : e.val = t.val / 4) (d : Fin 1024) :
    (iblk m c 4 t : Vec Ideal S1x1x1024 .f32) (ix3 (0 : Fin 1) (0 : Fin 1) d) = B2 m c (ix2 e d) := by
  rw [b2blk_apply m c t e he, b2r_apply]

end Cert.KernelIdeal.Blocks

end
-- ==== Proof.Pieces.lean ====
/-
  What one run of the kernel body leaves behind, as values of what it found.

  At the first tile of an expert the body clears the accumulator and then adds the tile's product onto the cleared
  contents; at the later tiles it adds onto what the tile before left; at the last tile it also writes the
  accumulator plus the output bias into the output block. Each statement below says that the memory contents the
  run leaves are the body's arithmetic (`k0_pay1`, `k0_pay2`, `k0_pay3`) applied to the contents the run found,
  for any float instance.
-/
import proofs.«162168_j137438954163_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile (not the last): the accumulator ends at the body's sum over what it held. -/
theorem scratch_B (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S1x256x1024 .f32) (h7 : a7.IsWhole) (a8 : Memref sig .tc .vmem S256x1024 .f32) (h8 : a8.IsWhole) (hc0 : ¬cond0_0 i) (hc1 : ¬cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    sout0_B_0 c i a2 h2 a3 h3 a4 h4 a5 h5 a6 h6 a7 h7 a8 h8 hc0 hc1 x0 x1 x2 x3 x4 xs0 = k0_pay2 x0 x1 x2 x3 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz2]
  simp only [View.readAt_eq_ld, h2.read_unread, h3.read_unread, h4.read_unread, h5.read_unread, h8.read_unread,
    View.ld_unit_zero (S := S256x1024) hz2, View.ld_unit_zero (S := S1x256x1024) hz3,
    View.ld_unit_zero (S := S1x1024x1024) hz3, View.ld_unit_zero (S := S1x1x1024) hz3]

/-- The last tile: the accumulator ends at the body's sum over what it held, -/
theorem scratch_C (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S1x256x1024 .f32) (h7 : a7.IsWhole) (a8 : Memref sig .tc .vmem S256x1024 .f32) (h8 : a8.IsWhole) (hc0 : ¬cond0_0 i) (hc1 : cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    sout0_C_0 c i a2 h2 a3 h3 a4 h4 a5 h5 a6 h6 a7 h7 a8 h8 hc0 hc1 x0 x1 x2 x3 x4 xs0 = k0_pay2 x0 x1 x2 x3 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz2]
  simp only [View.readAt_eq_ld, h2.read_unread, h3.read_unread, h4.read_unread, h5.read_unread, h8.read_unread,
    View.ld_unit_zero (S := S256x1024) hz2, View.ld_unit_zero (S := S1x256x1024) hz3,
    View.ld_unit_zero (S := S1x1024x1024) hz3, View.ld_unit_zero (S := S1x1x1024) hz3]

/-- and the output block at that accumulator plus the output bias. -/
theorem out_C (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S1x256x1024 .f32) (h7 : a7.IsWhole) (a8 : Memref sig .tc .vmem S256x1024 .f32) (h8 : a8.IsWhole) (hc0 : ¬cond0_0 i) (hc1 : cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    out0_C_5 c i a2 h2 a3 h3 a4 h4 a5 h5 a6 h6 a7 h7 a8 h8 hc0 hc1 x0 x1 x2 x3 x4 xs0 = k0_pay3 x4 (k0_pay2 x0 x1 x2 x3 xs0) := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz3]
  simp only [View.readAt_eq_ld, h2.read_unread, h3.read_unread, h4.read_unread, h5.read_unread, h6.read_unread, h8.read_unread,
    View.readCov_unit_zero (S := S256x1024) _ hz2,
    View.ld_unit_zero (S := S256x1024) hz2, View.ld_unit_zero (S := S1x256x1024) hz3,
    View.ld_unit_zero (S := S1x1024x1024) hz3, View.ld_unit_zero (S := S1x1x1024) hz3]

/-- The first tile: the accumulator ends at the body's sum over the cleared contents. -/
theorem scratch_A (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S1x256x1024 .f32) (h7 : a7.IsWhole) (a8 : Memref sig .tc .vmem S256x1024 .f32) (h8 : a8.IsWhole) (hc0 : cond0_0 i) (hc1 : ¬cond0_1 i) (x0 : Vec F S1x256x1024 .f32) (x1 : Vec F S1x1024x1024 .f32) (x2 : Vec F S1x1x1024 .f32) (x3 : Vec F S1x1024x1024 .f32) (x4 : Vec F S1x1x1024 .f32) :
    sout0_A_0 c i a2 h2 a3 h3 a4 h4 a5 h5 a6 h6 a7 h7 a8 h8 hc0 hc1 x0 x1 x2 x3 x4 = k0_pay2 x0 x1 x2 x3 k0_pay1 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S256x1024) hz2, View.readCov_unit_zero (S := S256x1024) _ hz2]
  simp only [View.readAt_eq_ld, h2.read_unread, h3.read_unread, h4.read_unread, h5.read_unread,
    View.readCov_unit_zero (S := S256x1024) _ hz2,
    View.ld_unit_zero (S := S256x1024) hz2, View.ld_unit_zero (S := S1x256x1024) hz3,
    View.ld_unit_zero (S := S1x1024x1024) hz3, View.ld_unit_zero (S := S1x1x1024) hz3]

end Cert.KernelIdeal.Pieces

end
-- ==== Proof.Accum.lean ====
/-
  The accumulator after each grid point.

  Within an expert the four tiles run in order. The first tile's run clears the accumulator and adds its share;
  each later run adds its share onto what the run before left. So after tile `j` of expert `e` the accumulator
  holds, at `(r, d)`, zero plus the shares of tiles `0 … j` added in order — by induction on the grid point, the
  expert's first tile being the base case wherever it falls. At the last tile the output block is that
  accumulator plus the output bias.
-/
import proofs.«162168_j137438954163_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import proofs.«162168_j137438954163_1_alg».proof.Proof.FfnSpec
import proofs.«162168_j137438954163_1_alg».proof.Proof.Payload
import proofs.«162168_j137438954163_1_alg».proof.Proof.Pieces
import proofs.«162168_j137438954163_1_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks

variable (m : (ℓ : Loc nD τ sig) → Buf (Elt Ideal) ℓ)

/-- At an expert's first tile the accumulator ends at the body's sum over the cleared contents. -/
theorem scratch_first (c : Dev nD) (t : Fin cfg0.N) (h0 : t.val % 4 = 0) (h1 : ¬t.val % 4 = 3) :
    ((outsAt0 m c t.val t.isLt).2 : Vec Ideal S256x1024 .f32) = k0_pay2 (iblk m c 0 t) (iblk m c 1 t) (iblk m c 2 t) (iblk m c 3 t) (k0_pay1 (F := Ideal)) := by
  rw [outsAt0_A m c t h0 h1]; dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At a later tile that is not the last, it ends at the body's sum over what the point before left. -/
theorem scratch_mid (c : Dev nD) (n : ℕ) (hn : n + 1 < cfg0.N) (h0 : ¬(n + 1) % 4 = 0) (h1 : ¬(n + 1) % 4 = 3) :
    ((outsAt0 m c (n + 1) hn).2 : Vec Ideal S256x1024 .f32)
      = k0_pay2 (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2 := by
  rw [outsAt0_B m c (⟨n + 1, hn⟩ : Fin cfg0.N) h0 h1]; dsimp only
  exact Pieces.scratch_B (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (outsAt0 m c n (Nat.lt_of_succ_lt hn)).2

/-- At the last tile likewise, -/
theorem scratch_last (c : Dev nD) (n : ℕ) (hn : n + 1 < cfg0.N) (h0 : ¬(n + 1) % 4 = 0) (h1 : (n + 1) % 4 = 3) :
    ((outsAt0 m c (n + 1) hn).2 : Vec Ideal S256x1024 .f32)
      = k0_pay2 (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2 := by
  rw [outsAt0_C m c (⟨n + 1, hn⟩ : Fin cfg0.N) h0 h1]; dsimp only
  exact Pieces.scratch_C (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (outsAt0 m c n (Nat.lt_of_succ_lt hn)).2

/-- and the output block is that accumulator plus the output bias row. -/
theorem out_last (c : Dev nD) (n : ℕ) (hn : n + 1 < cfg0.N) (h0 : ¬(n + 1) % 4 = 0) (h1 : (n + 1) % 4 = 3) :
    ((outsAt0 m c (n + 1) hn).1 : Vec Ideal S1x256x1024 .f32)
      = k0_pay3 (iblk m c 4 (⟨n + 1, hn⟩ : Fin cfg0.N)) ((outsAt0 m c (n + 1) hn).2 : Vec Ideal S256x1024 .f32) := by
  rw [scratch_last m c n hn h0 h1, outsAt0_C m c (⟨n + 1, hn⟩ : Fin cfg0.N) h0 h1]; dsimp only
  exact Pieces.out_C (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (outsAt0 m c n (Nat.lt_of_succ_lt hn)).2

/-- Tile `j`'s share of expert `e`'s result at `(r, d)`, the tile named by a natural number (zero past the fourth). -/
def share (c : Dev nD) (e : Fin 16) (r : Fin 256) (d : Fin 1024) (j : ℕ) : EReal :=
  if h : j < 4 then FfnSpec.tileSum (X m c) (W1 m c) (B1 m c) (W2 m c) e ⟨j, h⟩ r d else 0

/-- Zero plus the shares of tiles `0 … j`, added in order. -/
def partialSum (c : Dev nD) (e : Fin 16) (r : Fin 256) (d : Fin 1024) : ℕ → EReal
  | 0 => 0 + share m c e r d 0
  | j + 1 => partialSum c e r d j + share m c e r d (j + 1)

theorem share_of_lt (c : Dev nD) (e : Fin 16) (r : Fin 256) (d : Fin 1024) (j : Fin 4) (k : ℕ) (hk : j.val = k) :
    FfnSpec.tileSum (X m c) (W1 m c) (B1 m c) (W2 m c) e j r d = share m c e r d k := by
  subst hk
  unfold share
  rw [dif_pos j.isLt]

/-- The accumulator after point `n` holds expert `n / 4`'s partial sum through tile `n % 4`. -/
theorem scratch_eq (c : Dev nD) : ∀ (n : ℕ) (hn : n < cfg0.N) (e : Fin 16) (_ : e.val = n / 4) (r : Fin 256) (d : Fin 1024),
    ((outsAt0 m c n hn).2 : Vec Ideal S256x1024 .f32) (ix2 r d) = partialSum m c e r d (n % 4) := by
  intro n
  induction n with
  | zero =>
    intro hn e he r d
    rw [congrFun (scratch_first m c ⟨0, hn⟩ (Nat.zero_mod 4) (by show ¬(0 % 4 = 3); omega)) (ix2 r d),
      tile_step m c ⟨0, hn⟩ e he 0 rfl (k0_pay1 (F := Ideal)) r d, Payload.pay1_apply,
      share_of_lt m c e r d 0 0 rfl]
    rfl
  | succ n ih =>
    intro hn e he r d
    have hN : n + 1 < 64 := lt_of_lt_of_eq hn (show cfg0.N = 64 from N_0)
    by_cases h0 : (n + 1) % 4 = 0
    · rw [congrFun (scratch_first m c (⟨n + 1, hn⟩ : Fin cfg0.N) h0 (by show ¬((n + 1) % 4 = 3); omega)) (ix2 r d),
        tile_step m c (⟨n + 1, hn⟩ : Fin cfg0.N) e he 0 (by show 0 = (n + 1) % 4; omega) (k0_pay1 (F := Ideal)) r d, Payload.pay1_apply,
        share_of_lt m c e r d 0 0 rfl, h0]
      rfl
    · have hj : (n + 1) % 4 = n % 4 + 1 := by omega
      have hlt : n % 4 + 1 < 4 := by omega
      have ih' := ih (Nat.lt_of_succ_lt hn) e (by omega) r d
      have hstep : ((outsAt0 m c (n + 1) hn).2 : Vec Ideal S256x1024 .f32)
          = k0_pay2 (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2 := by
        by_cases h1 : (n + 1) % 4 = 3
        · exact scratch_last m c n hn h0 h1
        · exact scratch_mid m c n hn h0 h1
      rw [congrFun hstep (ix2 r d),
        tile_step m c (⟨n + 1, hn⟩ : Fin cfg0.N) e he ⟨n % 4 + 1, hlt⟩ hj.symm (outsAt0 m c n (Nat.lt_of_succ_lt hn)).2 r d, ih',
        share_of_lt m c e r d ⟨n % 4 + 1, hlt⟩ (n % 4 + 1) rfl, hj]
      rfl

/-- Through the fourth tile the partial sum is the layer's sum over all hidden units. -/
theorem partialSum_three (c : Dev nD) (e : Fin 16) (r : Fin 256) (d : Fin 1024) :
    partialSum m c e r d 3 + B2 m c (ix2 e d) = FfnSpec.ffn (X m c) (W1 m c) (B1 m c) (W2 m c) (B2 m c) (ix3 e r d) := by
  rw [FfnSpec.ffn_eq_tiles]
  simp only [partialSum, share]
  rfl

end Cert.KernelIdeal.Accum

end
-- ==== Proof.KernelValue.lean ====
/-
  What the kernel's result array holds after the run: the layer's function of the argument arrays.

  The output window is written back only at an expert's last tile, point `4 * e + 3`, and its block there is expert
  `e`'s whole `[256, 1024]` slab. What is written is the accumulator through the fourth tile plus the output bias,
  which is the layer's result at `(e, r, d)`. The sixteen slabs tile the array, so the array ends at the layer's
  function everywhere.
-/
import proofs.«162168_j137438954163_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import proofs.«162168_j137438954163_1_alg».proof.Proof.Gen.KernelIdeal.Value
import proofs.«162168_j137438954163_1_alg».proof.Proof.FfnSpec
import proofs.«162168_j137438954163_1_alg».proof.Proof.Payload
import proofs.«162168_j137438954163_1_alg».proof.Proof.Blocks
import proofs.«162168_j137438954163_1_alg».proof.Proof.Accum

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks

variable (m : (ℓ : Loc nD τ sig) → Buf (Elt Ideal) ℓ) (ρ : Dev nD → PrngReg)

/-- The layer's function of the argument arrays as launched. -/
abbrev layer (c : Dev nD) : S16x256x1024.Idx → EReal :=
  FfnSpec.ffn (X m c) (W1 m c) (B1 m c) (W2 m c) (B2 m c)

/-- At an expert's last tile the output block holds the layer's result for that expert. -/
theorem out_apply (c : Dev nD) (n : ℕ) (hn : n + 1 < cfg0.N) (h3 : (n + 1) % 4 = 3) (e : Fin 16) (he : e.val = (n + 1) / 4)
    (u : Fin 1) (r : Fin 256) (d : Fin 1024) :
    ((outsAt0 m c (n + 1) hn).1 : Vec Ideal S1x256x1024 .f32) (ix3 u r d) = layer m c (ix3 e r d) := by
  rw [congrFun (Accum.out_last m c n hn (by omega) h3) (ix3 u r d),
    Payload.pay3_apply (iblk m c 4 (⟨n + 1, hn⟩ : Fin cfg0.N)) (outsAt0 m c (n + 1) hn).2 u r d,
    Accum.scratch_eq m c (n + 1) hn e he r d, h3, bias_step m c (⟨n + 1, hn⟩ : Fin cfg0.N) e he d]
  exact Accum.partialSum_three m c e r d

/-- What a flushing point writes back is its block of the layer's function. -/
theorem flushed_eq (c : Dev nD) (t : Fin cfg0.N) (hf : (cfg0.win 5).flush t = true) :
    (dats m 0 c).flushed 5 t = ((cfg0.win 5).blk t).view.read (Elt Ideal) (layer m c) := by
  have h3 : t.val % 4 = 3 := (flush0_5 t).mp hf
  have hN : t.val < 64 := lt_of_lt_of_eq t.isLt (show cfg0.N = 64 from N_0)
  obtain ⟨n, hn⟩ := t
  cases n with
  | zero => exact absurd h3 (by show ¬(0 % 4 = 3); omega)
  | succ n =>
    obtain ⟨-, -, -, -, -, -, -, -, -, -, -, -, -, -, -, e0, e1, e2⟩ := idx_facts (⟨n + 1, hn⟩ : Fin cfg0.N)
    dsimp only at h3 hN e0
    have key : ∀ y : S1x256x1024.Idx, ((outsAt0 m c (n + 1) hn).1 : Vec Ideal S1x256x1024 .f32) y
        = layer m c (((cfg0.win 5).blk (⟨n + 1, hn⟩ : Fin cfg0.N)).view.emb y) := by
      intro y
      obtain ⟨u, r, d, rfl⟩ : ∃ (u : Fin 1) (r : Fin 256) (d : Fin 1024), y = ix3 u r d := ⟨y 0, y 1, y 2, eq_ix3 y⟩
      rw [out_apply m c n hn h3 ⟨(n + 1) / 4, by omega⟩ rfl u r d]
      refine congrArg (layer m c) (funext fun a => Fin.ext ?_)
      match a with
      | ⟨0, _⟩ => show (n + 1) / 4 = win0_5.index (⟨n + 1, hn⟩ : Fin cfg0.N) (0 : Fin 3) * 1 + 1 * u.val; omega
      | ⟨1, _⟩ => show r.val = win0_5.index (⟨n + 1, hn⟩ : Fin cfg0.N) (1 : Fin 3) * 256 + 1 * r.val; omega
      | ⟨2, _⟩ => show d.val = win0_5.index (⟨n + 1, hn⟩ : Fin cfg0.N) (2 : Fin 3) * 1024 + 1 * d.val; omega
    rw [Value.flushed5]
    funext y
    exact key y

/-- An index of the result array is in point `t`'s block iff each coordinate is in the block's range on its axis. -/
theorem mem_blk (t : Fin cfg0.N) (i : S16x256x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v2).slice (win0_5.rect t)).set ↔ _
  rw [View.set_slice_whole, Rect.mem_set_unit]
  exact Iff.rfl

/-- Every index `(e, r, d)` lies in the block written back at expert `e`'s last tile. -/
theorem cover (i : S16x256x1024.Idx) :
    ∃ t : Fin cfg0.N, (cfg0.win 5).flush t = true ∧ i ∈ ((cfg0.win 5).blk t).view.set := by
  have hi0 : (i 0).val < 16 := (i 0).isLt
  have hi1 : (i 1).val < 256 := (i 1).isLt
  have hi2 : (i 2).val < 1024 := (i 2).isLt
  have hlt : 4 * (i 0).val + 3 < cfg0.N := lt_of_lt_of_eq (by omega : 4 * (i 0).val + 3 < 64) (show cfg0.N = 64 from N_0).symm
  obtain ⟨-, -, -, -, -, -, -, -, -, -, -, -, -, -, -, e0, e1, e2⟩ := idx_facts ⟨4 * (i 0).val + 3, hlt⟩
  dsimp only at e0
  refine ⟨⟨4 * (i 0).val + 3, hlt⟩, (flush0_5 _).mpr (by show (4 * (i 0).val + 3) % 4 = 3; omega), ?_⟩
  rw [mem_blk]
  intro a
  match a with
  | ⟨0, _⟩ => show win0_5.index ⟨4 * (i 0).val + 3, hlt⟩ (0 : Fin 3) * 1 ≤ (i 0).val ∧ (i 0).val < win0_5.index ⟨4 * (i 0).val + 3, hlt⟩ (0 : Fin 3) * 1 + 1; omega
  | ⟨1, _⟩ => show win0_5.index ⟨4 * (i 0).val + 3, hlt⟩ (1 : Fin 3) * 256 ≤ (i 1).val ∧ (i 1).val < win0_5.index ⟨4 * (i 0).val + 3, hlt⟩ (1 : Fin 3) * 256 + 256; omega
  | ⟨2, _⟩ => show win0_5.index ⟨4 * (i 0).val + 3, hlt⟩ (2 : Fin 3) * 1024 ≤ (i 2).val ∧ (i 2).val < win0_5.index ⟨4 * (i 0).val + 3, hlt⟩ (2 : Fin 3) * 1024 + 1024; omega

/-- The result array after the run is the layer's function of the arguments. -/
theorem final (c : Dev nD) : (dats m 0 c).arrAt 5 cfg0.N = layer m c :=
  (dats m 0 c).arrAt_eq_of_cover 5 (layer m c) (flushed_eq m c) cover

/-- The kernel's run: every weakly fair execution ends with the result array at the layer's function of the arguments,
    the arguments unchanged. -/
theorem run : θ_run defs (onTc (τ := τ) (main (F := Ideal))) ⟨m, fun _ => 0, ρ⟩ fun r => ∀ c : Dev nD,
      r.2.mem ((c : Thread nD τ).loc main_v2) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Result

end
-- ==== Proof.lean ====
/-
  The expert feed-forward kernel against its reference: `silu (x · w1ᵀ + b1) · w2ᵀ + b2` per expert.

  The kernel tiles the 4096 hidden units into four tiles of 1024 and walks a 16 × 4 grid, expert by expert and tile
  by tile. At each tile it forms the tile's hidden activations, multiplies them into `w2`'s columns for that tile,
  and adds the product onto an accumulator that it clears at the expert's first tile; at the last tile it adds the
  output bias and writes the expert's `[256, 1024]` slab. The reference contracts all 4096 hidden units at once.

  On the extended reals the two agree at every entry: a change of float format is the identity, the kernel's
  logistic function is the reference's `1 / (1 + exp (-z))`, a matrix product into a zero accumulator is the plain
  sum of products, and the four tiles' partial sums added in order onto zero are the sum over all hidden units,
  since addition of extended reals is commutative and associative. No finiteness of the inputs is used.

  The three frames are the generated ones (the reference's is its generated run with the result dropped); the
  idealization rewrote nothing, so `preserves` is `True`.
-/
import proofs.«162168_j137438954163_1_alg».proof.Defs
import proofs.«162168_j137438954163_1_alg».proof.Proof.Gen.Kernel
import proofs.«162168_j137438954163_1_alg».proof.Proof.Gen.Kernel.Skeleton
import proofs.«162168_j137438954163_1_alg».proof.Proof.Gen.Kernel.Launch
import proofs.«162168_j137438954163_1_alg».proof.Proof.Gen.Kernel.Points
import proofs.«162168_j137438954163_1_alg».proof.Proof.Gen.Kernel.Frame
import proofs.«162168_j137438954163_1_alg».proof.Proof.Gen.KernelIdeal
import proofs.«162168_j137438954163_1_alg».proof.Proof.Gen.KernelIdeal.Skeleton
import proofs.«162168_j137438954163_1_alg».proof.Proof.Gen.KernelIdeal.Launch
import proofs.«162168_j137438954163_1_alg».proof.Proof.Gen.KernelIdeal.Points
import proofs.«162168_j137438954163_1_alg».proof.Proof.Gen.KernelIdeal.Frame
import proofs.«162168_j137438954163_1_alg».proof.Proof.Gen.ReferenceIdeal
import proofs.«162168_j137438954163_1_alg».proof.Proof.Gen.Pre_finite_inputs
import proofs.«162168_j137438954163_1_alg».proof.Proof.Gen.KernelIdeal.Value
import proofs.«162168_j137438954163_1_alg».proof.Proof.Gen.ReferenceIdeal.Run
import proofs.«162168_j137438954163_1_alg».proof.Proof.Gen.ReferenceIdeal.Read
import proofs.«162168_j137438954163_1_alg».proof.Proof.RefValue
import proofs.«162168_j137438954163_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the layer's function of the (agreeing) arguments. -/
theorem algebraic : Cert.algebraic_KernelIdeal_ReferenceIdeal := by
  intro m ρ m' ρ' _ hagree
  refine ⟨fun c => Cert.KernelIdeal.Result.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_is_ffn,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
